-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x64 : Shape := ⟨3, ![8, 4096, 64]⟩
abbrev S_ : Shape := ⟨0, ![]⟩

class Facts : Prop where
  bcast_S_S8x4096x64 : S_.BroadcastsInDim S8x4096x64 (![] : Fin 0 → Fin S8x4096x64.rank)
  reducesTo_S8x4096x64_S_d0_1_2 : S8x4096x64.ReducesTo [0, 1, 2] S_
  h_S_ : 0 < S_.numel

variable [Facts]

def fn {F : FTy → Type} [FloatOps F] (main_arg0 : FVec F S8x4096x64 .f32) (main_arg1 : FVec F S8x4096x64 .f32) : IVec S_ 1 :=
  let main_v0 : FVec F S8x4096x64 .f32 := Host.absf main_arg0
  let main_cst : FVec F S_ .f32 := constant S_ .f32 0x7F800000#32
  let main_v1 : FVec F S8x4096x64 .f32 := broadcastInDim S8x4096x64 ![] bcast_S_S8x4096x64 main_cst
  let main_v2 : IVec S8x4096x64 1 := cmpf .olt main_v0 main_v1
  let main_c : IVec S_ 1 := constantI S_ 1 1#1
  let main_v3 : IVec S_ 1 := (fun x v => Host.reduce IntOp.andi x v reducesTo_S8x4096x64_S_d0_1_2 h_S_) main_v2 main_c
  let main_v4 : FVec F S8x4096x64 .f32 := Host.absf main_arg1
  let main_cst_0 : FVec F S_ .f32 := constant S_ .f32 0x7F800000#32
  let main_v5 : FVec F S8x4096x64 .f32 := broadcastInDim S8x4096x64 ![] bcast_S_S8x4096x64 main_cst_0
  let main_v6 : IVec S8x4096x64 1 := cmpf .olt main_v4 main_v5
  let main_c_1 : IVec S_ 1 := constantI S_ 1 1#1
  let main_v7 : IVec S_ 1 := (fun x v => Host.reduce IntOp.andi x v reducesTo_S8x4096x64_S_d0_1_2 h_S_) main_v6 main_c_1
  let main_v8 : IVec S_ 1 := andi main_v3 main_v7
  main_v8
-- ==== Kernel.lean ====
abbrev S8x4096x64 : Shape := ⟨3, ![8, 4096, 64]⟩
abbrev S8x4096x4096 : Shape := ⟨3, ![8, 4096, 4096]⟩
abbrev S1x1024x64 : Shape := ⟨3, ![1, 1024, 64]⟩
abbrev S1x1024x1024 : Shape := ⟨3, ![1, 1024, 1024]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x4096, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1024, .f32⟩
  | .local _ .vmem, ⟨5, _⟩ => ⟨S1x1024x1024, .f32⟩
  | _, _ => ⟨S8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  bitsLt_bf16_f32 : FTy.bits .bf16 < FTy.bits .f32
  transposes_S1024x64_p1_0_S64x1024 : S1024x64.Transposes [1, 0] S64x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x4096x64.size a
  hwx0_0 : ∀ i : grid0.Coords, EltTy.bits .f32 = 32 ∨ (Rect.block (s := S8x4096x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S8x4096x64.size a
  hwx0_1 : ∀ i : grid0.Coords, EltTy.bits .f32 = 32 ∨ (Rect.block (s := S8x4096x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x4096.size a
  hwx0_2 : ∀ i : grid0.Coords, EltTy.bits .f32 = 32 ∨ (Rect.block (s := S8x4096x4096) S1x1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x64 : Shape := ⟨3, ![8, 4096, 64]⟩
abbrev S8x4096x4096 : Shape := ⟨3, ![8, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x64, .f32⟩
  | .hbm, ⟨1, _⟩ => ⟨S8x4096x64, .f32⟩
  | .hbm, ⟨2, _⟩ => ⟨S8x4096x4096, .f32⟩
  | _, _ => ⟨S8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x64_S8x4096x64_S8x4096x4096_2_2_1_1_0_0_wf : DotDims.WF S8x4096x64 S8x4096x64 S8x4096x4096 [2] [2] [1] [1] [0] [0]

variable [Facts₀]

def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf

class Facts : Prop extends Facts₀ where

variable [Facts]
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.Payload.lean ====
/-
  What the kernel body computes from its two loaded blocks, at an entry. A block of either input is one batch's
  1024 rows of 64 features, shaped [1, 1024, 64]. The body drops the unit axis, changes the float format (which
  changes no value over the extended reals), transposes the second block to [64, 1024], multiplies the two
  matrices into a zero accumulator, and puts the unit axis back. So the stored [1, 1024, 1024] block has at
  (0, p, q) the inner product of row p of the first block with row q of the second.
-/
import proofs.«110684_j76149770158251_1_alg».proof.Proof.Gen.KernelIdeal.Skeleton
import proofs.«110684_j76149770158251_1_alg».proof.Proof.LibPlainDot
import Idealize.ShloMosaic.Lib.ValueLayout

noncomputable section

namespace Cert.KernelIdeal.Payload

open Cert.KernelIdeal Cert.KernelIdeal.Gen Idealize.ShloMosaic Idealize.ShloMosaic.ValueIdx
open scoped BigOperators

/-- The first block after the cast and the format change, at (p, k): the block's entry (0, p, k). -/
theorem lhs_apply (x0 : Vec Ideal S1x1024x64 .f32) (p : Fin 1024) (k : Fin 64) :
    (truncf .bf16 (shapeCast S1024x64 x0 Facts₀.shapeCasts_S1x1024x64_S1024x64 : FVec Ideal S1024x64 .f32) Facts₀.bitsLt_bf16_f32
        : FVec Ideal S1024x64 .bf16) (ix2 p k)
      = x0 (ix3 (0 : Fin 1) p k) :=
  (truncf_apply (ψ := .bf16) (φ := .f32) _ Facts₀.bitsLt_bf16_f32 (ix2 p k)).trans (shapeCast_1ab_ab_apply _ _ p k)

/-- The second block after the cast, the format change and the transpose, at (k, q): the block's entry (0, q, k). -/
theorem rhs_apply (x1 : Vec Ideal S1x1024x64 .f32) (k : Fin 64) (q : Fin 1024) :
    (transpose S64x1024 [1, 0]
        (truncf .bf16 (shapeCast S1024x64 x1 Facts₀.shapeCasts_S1x1024x64_S1024x64 : FVec Ideal S1024x64 .f32) Facts₀.bitsLt_bf16_f32
          : FVec Ideal S1024x64 .bf16)
        Facts₀.transposes_S1024x64_p1_0_S64x1024 : FVec Ideal S64x1024 .bf16) (ix2 k q)
      = x1 (ix3 (0 : Fin 1) q k) :=
  (transpose_ix2_apply _ _ k q).trans (lhs_apply x1 q k)

/-- The stored block at (u, p, q): the sum over the 64 features of the products of the two rows' entries. -/
theorem pay_apply (x0 x1 : Vec Ideal S1x1024x64 .f32) (u : Fin 1) (p q : Fin 1024) :
    k0_pay1 (F := Ideal) x0 x1 (ix3 u p q)
      = ∑ k : Fin 64, (x0 (ix3 (0 : Fin 1) p k) : EReal) * (x1 (ix3 (0 : Fin 1) q k) : EReal) := by
  unfold k0_pay1
  refine (shapeCast_ab_1ab_apply _ _ u p q).trans ?_
  refine (PlainDot.matmul_zero_apply _ rfl rfl rfl rfl rfl rfl none _ _ p q).trans ?_
  refine Finset.sum_congr rfl fun k _ => ?_
  exact congrArg₂ (· * ·) (lhs_apply x0 p k) (rhs_apply x1 k q)

end Cert.KernelIdeal.Payload

end
-- ==== Proof.Similarity.lean ====
/-
  The batched similarity of two stacks of row vectors, over the extended reals.

  Two arrays of shape [8, 4096, 64] are read as 8 batches of 4096 rows of 64 features. The similarity of
  batch b, row n of the first array and row m of the second is the inner product of the two rows,
      sim x y (b, n, m) = sum over k < 64 of x (b, n, k) * y (b, m, k),
  which is the (n, m) entry of the matrix product of batch b of x with the transpose of batch b of y.
  Only sums and products of extended reals appear, so nothing here asks the entries to be finite.
-/
import Idealize.ShloMosaic.PureOps.Ideal
import Idealize.ShloMosaic.Lib.ValueIdx

noncomputable section

namespace Cert.Similarity

open Idealize.ShloMosaic Idealize.ShloMosaic.ValueIdx
open scoped BigOperators

/-- The inner product of row n of batch b of x with row m of batch b of y. -/
def rowDot (x y : (⟨3, ![8, 4096, 64]⟩ : Shape).Idx → EReal) (b : Fin 8) (n m : Fin 4096) : EReal :=
  ∑ k : Fin 64, x (ix3 b n k) * y (ix3 b m k)

/-- The whole [8, 4096, 4096] array of similarities: at (b, n, m) the inner product of the two rows. -/
def sim (x y : (⟨3, ![8, 4096, 64]⟩ : Shape).Idx → EReal) : (⟨3, ![8, 4096, 4096]⟩ : Shape).Idx → EReal :=
  fun i => rowDot x y (i 0) (i 1) (i 2)

theorem sim_apply (x y : (⟨3, ![8, 4096, 64]⟩ : Shape).Idx → EReal) (b : Fin 8) (n m : Fin 4096) :
    sim x y (ix3 b n m) = ∑ k : Fin 64, x (ix3 b n k) * y (ix3 b m k) := rfl

end Cert.Similarity

end
-- ==== Proof.KernelValue.lean ====
/-
  From the kernel's blocks to its whole result array.

  The grid has 8 * 4 * 4 points (b, i, j). At a point the first input's block is rows 1024 i .. 1024 i + 1023 of
  batch b, the second input's block is rows 1024 j .. 1024 j + 1023 of batch b, and the output's block is the
  [1, 1024, 1024] tile of batch b at row block i and column block j. The body leaves in that tile, at (0, p, q), the
  inner product of row p of the first block with row q of the second (Payload.lean), which is the similarity of
  rows 1024 i + p and 1024 j + q of batch b: the tile is the similarity array read through the block.
  The tiles cover the array (the tile holding (b, n, m) is the point (b, n / 1024, m / 1024)), so after the run the
  result array is the similarity array of the two arguments.
-/
import proofs.«110684_j76149770158251_1_alg».proof.Proof.Gen.KernelIdeal.Value
import proofs.«110684_j76149770158251_1_alg».proof.Proof.Payload
import proofs.«110684_j76149770158251_1_alg».proof.Proof.Similarity

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Similarity
open Idealize.ShloMosaic.Pipeline (Dat)
open scoped BigOperators

variable (m : (ℓ : Loc nD τ sig) → Buf (Elt Ideal) ℓ) (ρ : Dev nD → PrngReg)

theorem zero3 : (![0, 0, 0] : Fin 3 → Nat) = fun _ => 0 := funext fun a => by fin_cases a <;> rfl

/-- The three index maps over the grid: the first input moves with the output's batch and row block, the second with
    the output's batch and column block, and neither moves along the feature axis. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0 :=
  (by decide +kernel : ∀ t : Fin grid0.N, _)

/-- Every tile of the result array is some point's. -/
theorem idx_onto : ∀ (q0 : Fin 8) (q1 : Fin 4) (q2 : Fin 4), ∃ t : Fin cfg0.N, win0_2.index t = ![q0.val, q1.val, q2.val] :=
  (by decide +kernel : ∀ (q0 : Fin 8) (q1 : Fin 4) (q2 : Fin 4), ∃ t : Fin grid0.N, win0_2.index t = ![q0.val, q1.val, q2.val])

/-- What point t writes back is the similarity array of the two arguments, read through the point's tile. -/
theorem flushed_eq (c : Dev nD) (t : Fin cfg0.N) :
    (dats m 0 c).flushed 2 t
      = ((cfg0.win 2).blk t).view.read (Elt Ideal) (sim (V m c main_arg0) (V m c main_arg1)) := by
  rw [Value.flushed2]
  unfold out0_2
  rw [View.canon_unit_zero zero3]
  simp only [View.ld_unit_zero (S := S1x1024x64) zero3]
  obtain ⟨e0, e1, e2, e3, e4, e5⟩ := idx_facts t
  funext j
  obtain ⟨u, p, q, rfl⟩ : ∃ (u : Fin 1) (p q : Fin 1024), j = ix3 u p q := ⟨j 0, j 1, j 2, eq_ix3 j⟩
  show k0_pay1 (F := Ideal) (iblk m c 0 t) (iblk m c 1 t) (ix3 u p q)
    = sim (V m c main_arg0) (V m c main_arg1) (((cfg0.win 2).blk t).view.emb (ix3 u p q))
  refine (Payload.pay_apply (iblk m c 0 t) (iblk m c 1 t) u p q).trans ?_
  unfold sim rowDot
  refine Finset.sum_congr rfl fun k _ => ?_
  have hu : u.val = 0 := by omega
  have h0 : ((cfg0.win 0).blk t).view.emb (ix3 (0 : Fin 1) p k)
      = ix3 ((((cfg0.win 2).blk t).view.emb (ix3 u p q)) 0) ((((cfg0.win 2).blk t).view.emb (ix3 u p q)) 1) k := by
    funext a; apply Fin.ext
    match a with
    | ⟨0, _⟩ => show win0_0.index t (0 : Fin 3) * 1 + 1 * 0 = win0_2.index t (0 : Fin 3) * 1 + 1 * u.val; omega
    | ⟨1, _⟩ => show win0_0.index t (1 : Fin 3) * 1024 + 1 * p.val = win0_2.index t (1 : Fin 3) * 1024 + 1 * p.val; omega
    | ⟨2, _⟩ => show win0_0.index t (2 : Fin 3) * 64 + 1 * k.val = k.val; omega
  have h1 : ((cfg0.win 1).blk t).view.emb (ix3 (0 : Fin 1) q k)
      = ix3 ((((cfg0.win 2).blk t).view.emb (ix3 u p q)) 0) ((((cfg0.win 2).blk t).view.emb (ix3 u p q)) 2) k := by
    funext a; apply Fin.ext
    match a with
    | ⟨0, _⟩ => show win0_1.index t (0 : Fin 3) * 1 + 1 * 0 = win0_2.index t (0 : Fin 3) * 1 + 1 * u.val; omega
    | ⟨1, _⟩ => show win0_1.index t (1 : Fin 3) * 1024 + 1 * q.val = win0_2.index t (2 : Fin 3) * 1024 + 1 * q.val; omega
    | ⟨2, _⟩ => show win0_1.index t (2 : Fin 3) * 64 + 1 * k.val = k.val; omega
  have hA : (iblk m c 0 t (ix3 (0 : Fin 1) p k) : EReal)
      = V m c main_arg0 (ix3 ((((cfg0.win 2).blk t).view.emb (ix3 u p q)) 0) ((((cfg0.win 2).blk t).view.emb (ix3 u p q)) 1) k) := by
    show V m c main_arg0 (((cfg0.win 0).blk t).view.emb (ix3 (0 : Fin 1) p k)) = _
    rw [h0]
    rfl
  have hB : (iblk m c 1 t (ix3 (0 : Fin 1) q k) : EReal)
      = V m c main_arg1 (ix3 ((((cfg0.win 2).blk t).view.emb (ix3 u p q)) 0) ((((cfg0.win 2).blk t).view.emb (ix3 u p q)) 2) k) := by
    show V m c main_arg1 (((cfg0.win 1).blk t).view.emb (ix3 (0 : Fin 1) q k)) = _
    rw [h1]
    rfl
  exact congrArg₂ (· * ·) hA hB

/-- An index of the result array lies in point t's tile exactly when each coordinate lies in the tile's range. -/
theorem mem_blk (t : Fin cfg0.N) (i : S8x4096x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- The tiles cover the result array: (b, n, m) lies in the tile of the point with block indices (b, n / 1024, m / 1024). -/
theorem cover (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- After the run the result array is the similarity array of the two argument arrays. -/
theorem final (c : Dev nD) :
    (dats m 0 c).arrAt 2 cfg0.N
      = sim (m ((c : Thread nD τ).loc main_arg0)) (m ((c : Thread nD τ).loc main_arg1)) :=
  (dats m 0 c).arrAt_eq_of_cover 2 (sim (V m c main_arg0) (V m c main_arg1)) (fun t _ => flushed_eq m c t) cover

/-- The kernel's run, read: it terminates with the result array at the similarity array of its arguments, which are
    left unchanged. -/
theorem run : θ_run defs (onTc (τ := τ) (main (F := Ideal))) ⟨m, fun _ => 0, ρ⟩ fun r => ∀ c : Dev nD,
      r.2.mem ((c : Thread nD τ).loc main_v0)
        = sim (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.KernelValue

end
-- ==== Proof.RefValue.lean ====
/-
  The reference at an entry. Its one host operation is a dot_general that keeps the batch axis of both
  operands and contracts their feature axes, so its result at (b, n, m) is the sum over the 64 features k of
  x (b, n, k) * y (b, m, k): the similarity array of Similarity.lean.
-/
import proofs.«110684_j76149770158251_1_alg».proof.Proof.Gen.ReferenceIdeal.Read
import proofs.«110684_j76149770158251_1_alg».proof.Proof.Similarity

noncomputable section

namespace Cert.ReferenceIdeal.RefValue

open Cert.ReferenceIdeal Cert.ReferenceIdeal.Gen Idealize.ShloMosaic Idealize.ShloMosaic.ValueIdx Cert.Similarity
open scoped BigOperators

/-- The left operand is read at (b, n, k). -/
theorem lidx_eq (i : S8x4096x4096.Idx) (k : Fin 64) : Read.lidx_main_v0 i k = ix3 (i 0) (i 1) k :=
  funext fun a => Fin.ext (by match a with | ⟨0, _⟩ => rfl | ⟨1, _⟩ => rfl | ⟨2, _⟩ => rfl)

/-- The right operand is read at (b, m, k). -/
theorem ridx_eq (i : S8x4096x4096.Idx) (k : Fin 64) : Read.ridx_main_v0 i k = ix3 (i 0) (i 2) k :=
  funext fun a => Fin.ext (by match a with | ⟨0, _⟩ => rfl | ⟨1, _⟩ => rfl | ⟨2, _⟩ => rfl)

/-- The reference's result is the similarity array of its two arguments. -/
theorem ref_eq (x y : (⟨S8x4096x64, .f32⟩ : BufTy).Contents (Elt Ideal)) :
    Read.val_main_v0 (F := Ideal) x y = sim x y := by
  funext i
  rw [Read.val_main_v0_apply]
  show _ = ∑ k : Fin 64, x (ix3 (i 0) (i 1) k) * y (ix3 (i 0) (i 2) k)
  refine Finset.sum_congr rfl fun k _ => ?_
  rw [lidx_eq, ridx_eq]
  rfl

end Cert.ReferenceIdeal.RefValue

end
-- ==== Proof.lean ====
/-
  The kernel computes, for each of 8 batches, the 4096 x 4096 matrix of inner products of the rows of its two
  [8, 4096, 64] arguments, one [1024, 1024] tile per grid point: it multiplies a block of 1024 rows of the first
  argument by the transpose of a block of 1024 rows of the second, after a change of float format that changes no
  value over the extended reals. The reference is one batched dot_general contracting the feature axes. Both end
  with the similarity array of Similarity.lean, sim x y (b, n, m) = sum over k of x (b, n, k) * y (b, m, k): the
  kernel tile by tile (Payload.lean, KernelValue.lean), the reference entry by entry (RefValue.lean). The two sums
  are the same sum, term by term, so no law of the extended reals is needed and the inputs' finiteness is not used.
  The idealized kernel is the kernel's own text (no rewrite was applied), so there is nothing to preserve.
-/
import proofs.«110684_j76149770158251_1_alg».proof.Defs
import proofs.«110684_j76149770158251_1_alg».proof.Proof.Gen.Kernel
import proofs.«110684_j76149770158251_1_alg».proof.Proof.Gen.Kernel.Skeleton
import proofs.«110684_j76149770158251_1_alg».proof.Proof.Gen.Kernel.Launch
import proofs.«110684_j76149770158251_1_alg».proof.Proof.Gen.Kernel.Points
import proofs.«110684_j76149770158251_1_alg».proof.Proof.Gen.Kernel.Frame
import proofs.«110684_j76149770158251_1_alg».proof.Proof.Gen.KernelIdeal
import proofs.«110684_j76149770158251_1_alg».proof.Proof.Gen.KernelIdeal.Skeleton
import proofs.«110684_j76149770158251_1_alg».proof.Proof.Gen.KernelIdeal.Launch
import proofs.«110684_j76149770158251_1_alg».proof.Proof.Gen.KernelIdeal.Points
import proofs.«110684_j76149770158251_1_alg».proof.Proof.Gen.KernelIdeal.Frame
import proofs.«110684_j76149770158251_1_alg».proof.Proof.Gen.ReferenceIdeal
import proofs.«110684_j76149770158251_1_alg».proof.Proof.Gen.Pre_finite_inputs
import proofs.«110684_j76149770158251_1_alg».proof.Proof.Gen.KernelIdeal.Value
import proofs.«110684_j76149770158251_1_alg».proof.Proof.Gen.ReferenceIdeal.Run
import proofs.«110684_j76149770158251_1_alg».proof.Proof.Gen.ReferenceIdeal.Read
import proofs.«110684_j76149770158251_1_alg».proof.Proof.KernelValue
import proofs.«110684_j76149770158251_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the similarity array of those arguments. -/
theorem algebraic : Cert.algebraic_KernelIdeal_ReferenceIdeal := by
  intro m ρ m' ρ' _ hagree
  refine ⟨fun c => Cert.Similarity.sim (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
